-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072x1 : Shape := ⟨2, ![131072, 1]⟩
abbrev S512x512 : Shape := ⟨2, ![512, 512]⟩
abbrev S512 : Shape := ⟨1, ![512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S131072x1 : S_.BroadcastsInDim S131072x1 (![] : Fin 0 → Fin S131072x1.rank)
  reducesTo_S131072x1_S_d0_1 : S131072x1.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S131072x512 .f32) (main_arg1 : FVec F S131072x1 .f32) (main_arg2 : FVec F S512x512 .f32) (main_arg3 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x1 .f32 := Host.absf main_arg1
  let main_cst_0 : FVec F S_ .f32 := constant S_ .f32 0x7F800000#32
  let main_v5 : FVec F S131072x1 .f32 := broadcastInDim S131072x1 ![] bcast_S_S131072x1 main_cst_0
  let main_v6 : IVec S131072x1 1 := cmpf .olt main_v4 main_v5
  let main_c_1 : IVec S_ 1 := constantI S_ 1 1#1
  let main_v7 : IVec S_ 1 := (fun x v => Host.reduce IntOp.andi x v reducesTo_S131072x1_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S131072x512 : Shape := ⟨2, ![131072, 512]⟩
abbrev S131072x1 : Shape := ⟨2, ![131072, 1]⟩
abbrev S512x512 : Shape := ⟨2, ![512, 512]⟩
abbrev S512 : Shape := ⟨1, ![512]⟩
abbrev S1x512 : Shape := ⟨2, ![1, 512]⟩
abbrev S2048x512 : Shape := ⟨2, ![2048, 512]⟩
abbrev S2048x1 : Shape := ⟨2, ![2048, 1]⟩

abbrev nBuf : Space → Nat
  | .hbm => 8
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S131072x1, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512x512, .bf16⟩
  | .hbm, ⟨6, _⟩ => ⟨S1x512, .f32⟩
  | .hbm, ⟨7, _⟩ => ⟨S131072x512, .f32⟩
  | .local _ .vmem, ⟨0, _⟩ => ⟨S2048x512, .f32⟩
  | .local _ .vmem, ⟨1, _⟩ => ⟨S2048x512, .f32⟩
  | .local _ .vmem, ⟨2, _⟩ => ⟨S2048x1, .f32⟩
  | .local _ .vmem, ⟨3, _⟩ => ⟨S2048x1, .f32⟩
  | .local _ .vmem, ⟨4, _⟩ => ⟨S512x512, .bf16⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x1_S2048x1_0_0 : ∀ a, (![0, 0] : Fin 2 → Nat) a + S2048x1.size a ≤ S2048x1.size a
  h_S2048x1 : 0 < S2048x1.numel
  broadcasts_S2048x1_S2048x512 : S2048x1.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .f32 = 32 ∨ (Rect.block (s := S131072x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S131072x512.size a
  hwx0_4 : ∀ i : grid0.Coords, EltTy.bits .f32 = 32 ∨ (Rect.block (s := S131072x512) S2048x512.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072x1 : Shape := ⟨2, ![131072, 1]⟩
abbrev S512x512 : Shape := ⟨2, ![512, 512]⟩
abbrev S512 : Shape := ⟨1, ![512]⟩
abbrev S1x512 : Shape := ⟨2, ![1, 512]⟩

abbrev nBuf : Space → Nat
  | .hbm => 10
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x1, .f32⟩
  | .hbm, ⟨2, _⟩ => ⟨S512x512, .f32⟩
  | .hbm, ⟨3, _⟩ => ⟨S512, .f32⟩
  | .hbm, ⟨4, _⟩ => ⟨S131072x512, .f32⟩
  | .hbm, ⟨5, _⟩ => ⟨S131072x512, .f32⟩
  | .hbm, ⟨6, _⟩ => ⟨S131072x512, .f32⟩
  | .hbm, ⟨7, _⟩ => ⟨S1x512, .f32⟩
  | .hbm, ⟨8, _⟩ => ⟨S131072x512, .f32⟩
  | .hbm, ⟨9, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S131072x1_S131072x512_0_1 : S131072x1.BroadcastsInDim S131072x512 (![0, 1] : Fin 2 → Fin S131072x512.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  dot_S131072x512_S512x512_S131072x512_1_1_0_0_n_n_wf : DotDims.WF S131072x512 S512x512 S131072x512 [1] [1] [0] [0] [] []

variable [Facts₀]

def dot_S131072x512_S512x512_S131072x512_1_1_0_0_n_n : DotDims S131072x512 S512x512 S131072x512 where
  lhsContracting := [1]
  rhsContracting := [1]
  lhsNonContracting := [0]
  rhsNonContracting := [0]
  lhsBatch := []
  rhsBatch := []
  wf := dot_S131072x512_S512x512_S131072x512_1_1_0_0_n_n_wf

class Facts : Prop extends Facts₀ where

variable [Facts]
-- ==== Proof.Payload.lean ====
/-
  The kernel body's one stored value, read at an index. On a [2048, 512] block `a` of the activations, the whole
  [512, 512] array `b` the wrapper prepared (the weights transposed), the block's [2048, 1] column `s` of row scales
  and the [1, 512] row `u` of column scales, the body stores

      (matmul(a, b; zero accumulator) · broadcast(s)) · broadcast(u),

  the two narrowing casts and the two same-shape casts being the identity on extended reals. At `(p, q)` that is
  the sum over `k` of `a[p, k] · b[k, q]`, times `s[p, 0]`, times `u[0, q]`.
-/
import proofs.«408270_j8632884265290_3_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.Body

open Cert.KernelIdeal Cert.KernelIdeal.Gen

/-! ## The matrix product's operand indices, axis by axis -/

/-- The left operand's row is the output's row … -/
theorem lhs_mm_0 (j : S2048x512.Idx) (q : dot_S2048x512_S512x512_S2048x512_1_0_0_1_n_n.contr.Idx) :
    (dot_S2048x512_S512x512_S2048x512_1_0_0_1_n_n.lhsIdx j q 0).val = (j 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- … and its column the contraction's position. -/
theorem lhs_mm_1 (j : S2048x512.Idx) (q : dot_S2048x512_S512x512_S2048x512_1_0_0_1_n_n.contr.Idx) :
    (dot_S2048x512_S512x512_S2048x512_1_0_0_1_n_n.lhsIdx j q 1).val = (q ⟨0, by decide⟩).val :=
  dot_S2048x512_S512x512_S2048x512_1_0_0_1_n_n.lhsIdx_val_of_single rfl j q
/-- The right operand's row is the contraction's position … -/
theorem rhs_mm_0 (j : S2048x512.Idx) (q : dot_S2048x512_S512x512_S2048x512_1_0_0_1_n_n.contr.Idx) :
    (dot_S2048x512_S512x512_S2048x512_1_0_0_1_n_n.rhsIdx j q 0).val = (q ⟨0, by decide⟩).val :=
  dot_S2048x512_S512x512_S2048x512_1_0_0_1_n_n.rhsIdx_val_of_single rfl j q
/-- … and its column the output's column. -/
theorem rhs_mm_1 (j : S2048x512.Idx) (q : dot_S2048x512_S512x512_S2048x512_1_0_0_1_n_n.contr.Idx) :
    (dot_S2048x512_S512x512_S2048x512_1_0_0_1_n_n.rhsIdx j q 1).val = (j 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The matrix product into the zero accumulator, at `(p, q)`: row `p` of the left operand against column `q` of the right. -/
theorem mm_apply (a : FVec Ideal S2048x512 .bf16) (b : FVec Ideal S512x512 .bf16) (p : Fin 2048) (q : Fin 512) :
    matmul dot_S2048x512_S512x512_S2048x512_1_0_0_1_n_n none a b (constant S2048x512 .f32 0x00000000#32) (ix2 p q)
      = ∑ k : Fin 512, a (ix2 p k) * b (ix2 k q) := by
  show FloatOps.matmul dot_S2048x512_S512x512_S2048x512_1_0_0_1_n_n none a b (constant S2048x512 .f32 0x00000000#32) (ix2 p q) = _
  rw [Ideal.matmul_constant_zero_apply, ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 p q) ((ValueIdx.contrEquiv1 dot_S2048x512_S512x512_S2048x512_1_0_0_1_n_n 512 rfl rfl).symm k) = ix2 p k := funext fun c => Fin.ext (by
    match c with
    | ⟨0, _⟩ => exact lhs_mm_0 _ _
    | ⟨1, _⟩ => exact (lhs_mm_1 _ _).trans hk)
  have er : dot_S2048x512_S512x512_S2048x512_1_0_0_1_n_n.rhsIdx (ix2 p q) ((ValueIdx.contrEquiv1 dot_S2048x512_S512x512_S2048x512_1_0_0_1_n_n 512 rfl rfl).symm k) = ix2 k q := funext fun c => Fin.ext (by
    match c with
    | ⟨0, _⟩ => exact (rhs_mm_0 _ _).trans hk
    | ⟨1, _⟩ => exact rhs_mm_1 _ _)
  rw [el, er]

/-! ## The two scales' broadcasts -/

/-- A [2048, 1] column broadcast along the rows' length reads, at `(p, q)`, its entry `(p, 0)`. -/
theorem rowScale_apply (s : FVec Ideal S2048x1 .f32) (p : Fin 2048) (q : Fin 512) :
    broadcastTo S2048x512 s broadcasts_S2048x1_S2048x512 (ix2 p q) = s (ix2 p (0 : Fin 1)) :=
  broadcastTo_apply s broadcasts_S2048x1_S2048x512 (ix2 p q) (ix2 p (0 : Fin 1)) (fun c => match c with
    | ⟨0, _⟩ => by show p.val = if (2048 : Nat) = 1 then 0 else p.val; rw [if_neg (by decide)]
    | ⟨1, _⟩ => by show 0 = if (1 : Nat) = 1 then 0 else q.val; rw [if_pos rfl])

/-- A [1, 512] row broadcast down the block reads, at `(p, q)`, its entry `(0, q)`. -/
theorem colScale_apply (u : FVec Ideal S1x512 .f32) (p : Fin 2048) (q : Fin 512) :
    broadcastTo S2048x512 u broadcasts_S1x512_S2048x512 (ix2 p q) = u (ix2 (0 : Fin 1) q) :=
  broadcastTo_apply u broadcasts_S1x512_S2048x512 (ix2 p q) (ix2 (0 : Fin 1) q) (fun c => match c with
    | ⟨0, _⟩ => by show 0 = if (1 : Nat) = 1 then 0 else p.val; rw [if_pos rfl]
    | ⟨1, _⟩ => by show q.val = if (512 : Nat) = 1 then 0 else q.val; rw [if_neg (by decide)])

/-! ## The stored value -/

/-- The body's stored value at `(p, q)`. -/
theorem pay_apply (a : Vec Ideal S2048x512 .f32) (b : Vec Ideal S512x512 .bf16) (s : Vec Ideal S2048x1 .f32) (u : Vec Ideal S1x512 .f32)
    (p : Fin 2048) (q : Fin 512) :
    k0_pay1 (F := Ideal) a b s u (ix2 p q)
      = ((∑ k : Fin 512, a (ix2 p k) * b (ix2 k q)) * s (ix2 p (0 : Fin 1))) * u (ix2 (0 : Fin 1) q) := by
  unfold k0_pay1
  rw [mulf_apply, mulf_apply, shapeCast_self, shapeCast_self, rowScale_apply, colScale_apply, mm_apply]
  rfl

end Cert.KernelIdeal.Body

end
-- ==== Proof.Spec.lean ====
/-
  The function both programs compute, read on the extended reals: the activations times the TRANSPOSED weights,
  every row then scaled by its token's scale and every column by its output channel's scale,

      out[r, n] = ((∑ k, x[r, k] · w[n, k]) · xs[r, 0]) · ws[n]        (r < 131072, n < 512, k < 512).

  The two products are grouped the way both programs group them (first the row scale, then the column scale), so
  nothing about the extended reals is used beyond the sum and the product themselves: no distributivity, no
  cancellation, hence no finiteness of the inputs.
-/
import Idealize.ShloMosaic.PureOps.Ideal
import Idealize.ShloMosaic.Lib.ValueIdx

noncomputable section

open Idealize.ShloMosaic Idealize.ShloMosaic.ValueIdx
open scoped BigOperators

namespace Cert.ScaledGemm

/-- The scaled product, index by index: entry `(r, n)` is row `r` of `x` against row `n` of `w` (the weights are
    stored output channel first, so the contraction runs along BOTH second axes), times `xs[r, 0]`, times `ws[n]`. -/
def out (x : (⟨2, ![131072, 512]⟩ : Shape).Idx → EReal) (xs : (⟨2, ![131072, 1]⟩ : Shape).Idx → EReal)
    (w : (⟨2, ![512, 512]⟩ : Shape).Idx → EReal) (ws : (⟨1, ![512]⟩ : Shape).Idx → EReal) :
    (⟨2, ![131072, 512]⟩ : Shape).Idx → EReal :=
  fun i => ((∑ k : Fin 512, x (ix2 (i 0) k) * w (ix2 (i 1) k)) * xs (ix2 (i 0) (0 : Fin 1))) * ws (ix1 (i 1))

/-- The same at coordinates. -/
theorem out_ix2 (x : (⟨2, ![131072, 512]⟩ : Shape).Idx → EReal) (xs : (⟨2, ![131072, 1]⟩ : Shape).Idx → EReal)
    (w : (⟨2, ![512, 512]⟩ : Shape).Idx → EReal) (ws : (⟨1, ![512]⟩ : Shape).Idx → EReal) (r : Fin 131072) (n : Fin 512) :
    out x xs w ws (ix2 r n) = ((∑ k : Fin 512, x (ix2 r k) * w (ix2 n k)) * xs (ix2 r (0 : Fin 1))) * ws (ix1 n) := rfl

end Cert.ScaledGemm

end
-- ==== Proof.KernelSide.lean ====
/-
  The kernel's result array as ONE function of the four arguments.

  Before the call the wrapper transposes the weights (and narrows them, the identity here) and views the column
  scales as a [1, 512] row; the call then runs 64 grid points, point `t` reading rows `2048·t … 2048·t + 2047` of the
  activations and of the row scales, the whole prepared weights and the whole row of column scales, and writing
  rows `2048·t … 2048·t + 2047` of the result. So what point `t` writes is block `t` of the scaled product
  `ScaledGemm.out` of the ARGUMENTS (the prepared weights at `(k, q)` being the weights at `(q, k)`), the 64 blocks
  cover the array, and the array ends holding `ScaledGemm.out`.
-/
import proofs.«408270_j8632884265290_3_alg».proof.Proof.Gen.KernelIdeal.Value
import proofs.«408270_j8632884265290_3_alg».proof.Proof.Payload
import proofs.«408270_j8632884265290_3_alg».proof.Proof.Spec
import Idealize.ShloMosaic.Lib.Pipeline.Value
import Idealize.ShloMosaic.Lib.ValueLayout
import Idealize.ShloMosaic.Lib.StableHlo.Run

noncomputable section

open Idealize.ShloMosaic Idealize.ShloMosaic.TcCoe Idealize.ShloMosaic.ValueIdx Idealize.SL.Sem
open Idealize.ShloMosaic.Pipeline (Dat)
open scoped BigOperators

namespace Cert.KernelIdeal.AsScaledGemm

open Cert.KernelIdeal Cert.KernelIdeal.Gen Cert.KernelIdeal.Value

variable (m : (ℓ : Loc nD τ sig) → Buf (Elt Ideal) ℓ) (ρ : Dev nD → PrngReg)

/-! ## What the call finds in the two prepared arrays -/

/-- The prepared weights are the weights transposed (then narrowed: the identity on extended reals). -/
theorem prepared_w (c : Dev nD) : @Eq (S512x512.Idx → EReal) (V m c main_v1)
    (truncf (F := Ideal) .bf16 (transpose S512x512 [1, 0] (m ((c : Thread nD τ).loc main_arg2) : S512x512.Idx → EReal) transposes_S512x512_S512x512_1_0) bitsLt_bf16_f32) := by
  dsimp only [Gen.V, Gen.hostOps0]; after_results

/-- So at `(k, q)` they hold the weights' entry `(q, k)`. -/
theorem prepared_w_apply (c : Dev nD) (k q : Fin 512) :
    (V m c main_v1 : S512x512.Idx → EReal) (ix2 k q) = (m ((c : Thread nD τ).loc main_arg2) : S512x512.Idx → EReal) (ix2 q k) := by
  rw [prepared_w, truncf_apply, transpose_ix2_apply]

/-- The prepared column scales are the column scales viewed as one row. -/
theorem prepared_ws (c : Dev nD) : @Eq (S1x512.Idx → EReal) (V m c main_v2)
    (shapeCast S1x512 (m ((c : Thread nD τ).loc main_arg3) : S512.Idx → EReal) shapeCasts_S512_S1x512) := by
  dsimp only [Gen.V, Gen.hostOps0]; after_results; rfl

/-- So at `(0, q)` they hold the column scales' entry `q`. -/
theorem prepared_ws_apply (c : Dev nD) (q : Fin 512) :
    (V m c main_v2 : S1x512.Idx → EReal) (ix2 (0 : Fin 1) q) = (m ((c : Thread nD τ).loc main_arg3) : S512.Idx → EReal) (ix1 q) := by
  rw [prepared_ws]
  refine (shapeCast_addUnit_apply ![512] _ shapeCasts_S512_S1x512 (ix2 (0 : Fin 1) q)).trans (congrArg _ ?_)
  funext a
  match a with
  | ⟨0, _⟩ => rfl

/-! ## The windows' blocks, read at an index -/

theorem hz : (![0, 0] : Fin 2 → Nat) = fun _ => 0 := funext fun a => by fin_cases a <;> rfl

/-- The printed index maps over the 64 points: the activations, the row scales and the result move one block of rows
    per point; the prepared weights and column scales stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block of rows of the result is some point's. -/
theorem idx_onto : ∀ b : Fin 64, ∃ t : Fin cfg0.N, win0_4.index t = ![b.val, 0] :=
  (by decide +kernel : ∀ b : Fin 64, ∃ t : Fin grid0.N, win0_4.index t = ![b.val, 0])

/-- The activations' block at point `t` is rows `2048·t …` of the activations. -/
theorem x_block_apply (c : Dev nD) (t : Fin cfg0.N) (p : Fin 2048) (k : Fin 512) (r : Fin 131072) (hr : r.val = t.val * 2048 + p.val) :
    (iblk m c 0 t : Vec Ideal S2048x512 .f32) (ix2 p k) = (m ((c : Thread nD τ).loc main_arg0) : S131072x512.Idx → EReal) (ix2 r k) := by
  obtain ⟨e0, e1, -⟩ := idx_facts t
  show V m c main_arg0 (((cfg0.win 0).blk t).view.emb (ix2 p k)) = _
  rw [V_main_arg0 m c]
  congr 1
  funext a
  apply Fin.ext
  match a with
  | ⟨0, _⟩ => show win0_0.index t (0 : Fin 2) * 2048 + 1 * p.val = r.val; omega
  | ⟨1, _⟩ => show win0_0.index t (1 : Fin 2) * 512 + 1 * k.val = k.val; omega

/-- The row scales' block at point `t` is rows `2048·t …` of the row scales. -/
theorem xs_block_apply (c : Dev nD) (t : Fin cfg0.N) (p : Fin 2048) (r : Fin 131072) (hr : r.val = t.val * 2048 + p.val) :
    (iblk m c 1 t : Vec Ideal S2048x1 .f32) (ix2 p (0 : Fin 1)) = (m ((c : Thread nD τ).loc main_arg1) : S131072x1.Idx → EReal) (ix2 r (0 : Fin 1)) := by
  obtain ⟨-, -, e2, e3, -⟩ := idx_facts t
  show V m c main_arg1 (((cfg0.win 1).blk t).view.emb (ix2 p (0 : Fin 1))) = _
  rw [V_main_arg1 m c]
  congr 1
  funext a
  apply Fin.ext
  match a with
  | ⟨0, _⟩ => show win0_1.index t (0 : Fin 2) * 2048 + 1 * p.val = r.val; omega
  | ⟨1, _⟩ => show win0_1.index t (1 : Fin 2) * 1 + 1 * 0 = 0; omega

/-- The prepared weights' block is the whole array, at every point: entry `(k, q)` is the weights' `(q, k)`. -/
theorem w_block_apply (c : Dev nD) (t : Fin cfg0.N) (k q : Fin 512) :
    (iblk m c 2 t : Vec Ideal S512x512 .bf16) (ix2 k q) = (m ((c : Thread nD τ).loc main_arg2) : S512x512.Idx → EReal) (ix2 q k) := by
  obtain ⟨-, -, -, -, e4, e5, -⟩ := idx_facts t
  show V m c main_v1 (((cfg0.win 2).blk t).view.emb (ix2 k q)) = _
  refine Eq.trans (congrArg (V m c main_v1 : S512x512.Idx → EReal) ?_) (prepared_w_apply m c k q)
  funext a
  apply Fin.ext
  match a with
  | ⟨0, _⟩ => show win0_2.index t (0 : Fin 2) * 512 + 1 * k.val = k.val; omega
  | ⟨1, _⟩ => show win0_2.index t (1 : Fin 2) * 512 + 1 * q.val = q.val; omega

/-- The prepared column scales' block is the whole row, at every point: entry `(0, q)` is the column scales' `q`. -/
theorem ws_block_apply (c : Dev nD) (t : Fin cfg0.N) (q : Fin 512) :
    (iblk m c 3 t : Vec Ideal S1x512 .f32) (ix2 (0 : Fin 1) q) = (m ((c : Thread nD τ).loc main_arg3) : S512.Idx → EReal) (ix1 q) := by
  obtain ⟨-, -, -, -, -, -, e6, e7, -⟩ := idx_facts t
  show V m c main_v2 (((cfg0.win 3).blk t).view.emb (ix2 (0 : Fin 1) q)) = _
  refine Eq.trans (congrArg (V m c main_v2 : S1x512.Idx → EReal) ?_) (prepared_ws_apply m c q)
  funext a
  apply Fin.ext
  match a with
  | ⟨0, _⟩ => show win0_3.index t (0 : Fin 2) * 1 + 1 * 0 = 0; omega
  | ⟨1, _⟩ => show win0_3.index t (1 : Fin 2) * 512 + 1 * q.val = q.val; omega

/-! ## One point's stored block is its block of the scaled product -/

/-- For blocks `a`, `b`, `s`, `u` that are rows `2048·T …` of `X`, the transpose of `W`, rows `2048·T …` of `XS` and the row
    `WS`, the body's stored value at `j` is the scaled product of `X`, `XS`, `W`, `WS` at row `2048·T + j₀`, column `j₁`. -/
theorem stored_eq_out (a : Vec Ideal S2048x512 .f32) (b : Vec Ideal S512x512 .bf16) (s : Vec Ideal S2048x1 .f32) (u : Vec Ideal S1x512 .f32)
    (X : S131072x512.Idx → EReal) (XS : S131072x1.Idx → EReal) (W : S512x512.Idx → EReal) (WS : S512.Idx → EReal) (T : Nat)
    (ha : ∀ (p : Fin 2048) (k : Fin 512) (r : Fin 131072), r.val = T * 2048 + p.val → a (ix2 p k) = X (ix2 r k))
    (hb : ∀ k q : Fin 512, b (ix2 k q) = W (ix2 q k))
    (hs : ∀ (p : Fin 2048) (r : Fin 131072), r.val = T * 2048 + p.val → s (ix2 p (0 : Fin 1)) = XS (ix2 r (0 : Fin 1)))
    (hu : ∀ q : Fin 512, u (ix2 (0 : Fin 1) q) = WS (ix1 q))
    (j : S2048x512.Idx) (i : S131072x512.Idx) (hi0 : (i 0).val = T * 2048 + (j 0).val) (hi1 : (i 1).val = (j 1).val) :
    k0_pay1 (F := Ideal) a b s u j = Cert.ScaledGemm.out X XS W WS i := by
  obtain ⟨p, q, rfl⟩ : ∃ (p : Fin 2048) (q : Fin 512), j = ix2 p q := ⟨j 0, j 1, eq_ix2 j⟩
  obtain ⟨r, n, rfl⟩ : ∃ (r : Fin 131072) (n : Fin 512), i = ix2 r n := ⟨i 0, i 1, eq_ix2 i⟩
  have hr : r.val = T * 2048 + p.val := hi0
  obtain rfl : n = q := Fin.ext hi1
  rw [Cert.KernelIdeal.Body.pay_apply, Cert.ScaledGemm.out_ix2, hs p r hr, hu n]
  congr 2
  exact Finset.sum_congr rfl fun k _ => by rw [ha p k r hr, hb k n]

/-- WHAT POINT `t` WRITES BACK is block `t` of the scaled product of the arguments. -/
theorem flushed_eq (c : Dev nD) (t : Fin cfg0.N) :
    (dats m 0 c).flushed 4 t = ((cfg0.win 4).blk t).view.read (Elt Ideal)
      (Cert.ScaledGemm.out (m ((c : Thread nD τ).loc main_arg0)) (m ((c : Thread nD τ).loc main_arg1)) (m ((c : Thread nD τ).loc main_arg2)) (m ((c : Thread nD τ).loc main_arg3))) := by
  rw [flushed4]
  unfold out0_4
  rw [View.canon_unit_zero hz]
  simp only [View.ld_unit_zero (S := S2048x512) hz, View.ld_unit_zero (S := S512x512) hz, View.ld_unit_zero (S := S2048x1) hz, View.ld_unit_zero (S := S1x512) hz]
  obtain ⟨-, -, -, -, -, -, -, -, e8, e9⟩ := idx_facts t
  funext j
  show k0_pay1 (F := Ideal) (iblk m c 0 t) (iblk m c 2 t) (iblk m c 1 t) (iblk m c 3 t) j
    = Cert.ScaledGemm.out (m ((c : Thread nD τ).loc main_arg0)) (m ((c : Thread nD τ).loc main_arg1)) (m ((c : Thread nD τ).loc main_arg2)) (m ((c : Thread nD τ).loc main_arg3)) (((cfg0.win 4).blk t).view.emb j)
  refine stored_eq_out (iblk m c 0 t) (iblk m c 2 t) (iblk m c 1 t) (iblk m c 3 t)
    (m ((c : Thread nD τ).loc main_arg0)) (m ((c : Thread nD τ).loc main_arg1)) (m ((c : Thread nD τ).loc main_arg2)) (m ((c : Thread nD τ).loc main_arg3)) t.val
    (fun p k r hr => x_block_apply m c t p k r hr) (fun k q => w_block_apply m c t k q)
    (fun p r hr => xs_block_apply m c t p r hr) (fun q => ws_block_apply m c t q) j (((cfg0.win 4).blk t).view.emb j) ?_ ?_
  · show win0_4.index t (0 : Fin 2) * 2048 + 1 * (j 0).val = t.val * 2048 + (j 0).val; omega
  · show win0_4.index t (1 : Fin 2) * 512 + 1 * (j 1).val = (j 1).val; omega

/-! ## The blocks cover the array -/

/-- An index of the result is in point `t`'s block iff each coordinate is in the block's range on its axis. -/
theorem mem_blk (t : Fin cfg0.N) (i : S131072x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v3).slice (win0_4.rect t)).set ↔ _
  rw [View.set_slice_whole, Rect.mem_set_unit]
  exact Iff.rfl

/-- Row `r` of the result is in the block of the point whose block of rows is `r / 2048`. -/
theorem cover (i : S131072x512.Idx) : ∃ t : Fin cfg0.N, (cfg0.win 4).flush t = true ∧ i ∈ ((cfg0.win 4).blk t).view.set := by
  have hi0 : (i 0).val < 131072 := (i 0).isLt
  have hi1 : (i 1).val < 512 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 512 ≤ (i 1).val ∧ (i 1).val < win0_4.index t (1 : Fin 2) * 512 + 512; omega

/-! ## The array after the run, and the run -/

/-- The result array ends holding the scaled product of the arguments. -/
theorem final (c : Dev nD) : (dats m 0 c).arrAt 4 cfg0.N
    = Cert.ScaledGemm.out (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

/-- Every weakly fair execution of the kernel's program ends with the result at the scaled product of the arguments
    and the arguments unchanged. -/
theorem run : θ_run defs (onTc (τ := τ) (main (F := Ideal))) ⟨m, fun _ => 0, ρ⟩ fun r => ∀ c : Dev nD,
      r.2.mem ((c : Thread nD τ).loc main_v3)
        = Cert.ScaledGemm.out (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.AsScaledGemm

end
-- ==== Proof.RefSide.lean ====
/-
  The reference, read at an index. Its run ends at
      (dot_general(x, w; contracting both second axes) · broadcast(xs)) · broadcast(broadcast(ws)),
  and at entry `(r, n)` that is the sum over `k` of `x[r, k] · w[n, k]`, times `xs[r, 0]`, times `ws[n]`: the scaled
  product `ScaledGemm.out` of the four arguments, term for term.
-/
import proofs.«408270_j8632884265290_3_alg».proof.Proof.Gen.ReferenceIdeal.Read
import proofs.«408270_j8632884265290_3_alg».proof.Proof.Spec

noncomputable section

open Idealize.ShloMosaic Idealize.ShloMosaic.ValueIdx
open scoped BigOperators

namespace Cert.ReferenceIdeal.AsScaledGemm

open Cert.ReferenceIdeal Cert.ReferenceIdeal.Read

/-- The left operand's index of the contraction is `(r, k)`. -/
theorem lidx_eq (i : S131072x512.Idx) (k : Fin 512) : lidx_main_v0 i k = ix2 (i 0) k :=
  funext fun a => Fin.ext (by match a with | ⟨0, _⟩ => rfl | ⟨1, _⟩ => rfl)

/-- The right operand's is `(n, k)`: the weights are contracted along their second axis. -/
theorem ridx_eq (i : S131072x512.Idx) (k : Fin 512) : ridx_main_v0 i k = ix2 (i 1) k :=
  funext fun a => Fin.ext (by match a with | ⟨0, _⟩ => rfl | ⟨1, _⟩ => rfl)

/-- The row scale is read at `(r, 0)`. -/
theorem idx_v1_eq (i : S131072x512.Idx) : idx_main_v1 i = ix2 (i 0) (0 : Fin 1) :=
  funext fun a => Fin.ext (by match a with | ⟨0, _⟩ => rfl | ⟨1, _⟩ => rfl)

/-- The column scale is read at `n`, through its two broadcasts. -/
theorem idx_v3_v4_eq (i : S131072x512.Idx) : idx_main_v3 (idx_main_v4 i) = ix1 (i 1) :=
  funext fun a => Fin.ext (by match a with | ⟨0, _⟩ => rfl)

/-- The reference's result is the scaled product of its arguments. -/
theorem val_eq_out (x0 : (⟨S131072x512, .f32⟩ : BufTy).Contents (Elt Ideal)) (x1 : (⟨S131072x1, .f32⟩ : BufTy).Contents (Elt Ideal))
    (x2 : (⟨S512x512, .f32⟩ : BufTy).Contents (Elt Ideal)) (x3 : (⟨S512, .f32⟩ : BufTy).Contents (Elt Ideal)) :
    val_main_v5 (F := Ideal) x0 x1 x2 x3 = Cert.ScaledGemm.out x0 x1 x2 x3 := by
  funext i
  rw [val_main_v5_apply, val_main_v2_apply, val_main_v0_apply, val_main_v1_apply, val_main_v4_apply, val_main_v3_apply]
  simp only [lidx_eq, ridx_eq, idx_v1_eq, idx_v3_v4_eq]
  rfl

end Cert.ReferenceIdeal.AsScaledGemm

end
-- ==== Proof.lean ====
/-
  A matrix product with fused scaling, kernel against reference, over the extended reals.

  Both programs take activations `x` [131072, 512], row scales `xs` [131072, 1], weights `w` [512, 512] stored output
  channel first, and column scales `ws` [512], and both end with

      out[r, n] = ((∑ k, x[r, k] · w[n, k]) · xs[r, 0]) · ws[n].

  The reference contracts the two second axes directly, then multiplies by the two broadcast scales. The kernel's
  wrapper first transposes the weights, so that its per-block matrix product contracts the activations' second axis
  against the prepared array's first — the same terms `x[r, k] · w[n, k]`, summed over the same `k` —, starts from a
  zero accumulator, and multiplies by the block's column of row scales and then by the row of column scales: the same
  two products in the same order. Changes of float format are the identity on extended reals. The 64 grid points
  write the 64 blocks of 2048 rows, which tile the result. No step uses more of the extended reals than that two equal
  sums of equal products are equal, so the inputs' finiteness is never opened.

  The frames of the two kernel programs are the generated ones; the reference's frame is its generated run with the
  result forgotten; the idealization rewrote nothing, so `preserves` has nothing to state.
-/
import proofs.«408270_j8632884265290_3_alg».proof.Defs
import proofs.«408270_j8632884265290_3_alg».proof.Proof.Gen.Kernel
import proofs.«408270_j8632884265290_3_alg».proof.Proof.Gen.Kernel.Skeleton
import proofs.«408270_j8632884265290_3_alg».proof.Proof.Gen.Kernel.Launch
import proofs.«408270_j8632884265290_3_alg».proof.Proof.Gen.Kernel.Points
import proofs.«408270_j8632884265290_3_alg».proof.Proof.Gen.Kernel.Frame
import proofs.«408270_j8632884265290_3_alg».proof.Proof.Gen.KernelIdeal
import proofs.«408270_j8632884265290_3_alg».proof.Proof.Gen.KernelIdeal.Skeleton
import proofs.«408270_j8632884265290_3_alg».proof.Proof.Gen.KernelIdeal.Launch
import proofs.«408270_j8632884265290_3_alg».proof.Proof.Gen.KernelIdeal.Points
import proofs.«408270_j8632884265290_3_alg».proof.Proof.Gen.KernelIdeal.Frame
import proofs.«408270_j8632884265290_3_alg».proof.Proof.Gen.ReferenceIdeal
import proofs.«408270_j8632884265290_3_alg».proof.Proof.Gen.Pre_finite_inputs
import proofs.«408270_j8632884265290_3_alg».proof.Proof.Gen.KernelIdeal.Value
import proofs.«408270_j8632884265290_3_alg».proof.Proof.Gen.ReferenceIdeal.Run
import proofs.«408270_j8632884265290_3_alg».proof.Proof.Gen.ReferenceIdeal.Read
import proofs.«408270_j8632884265290_3_alg».proof.Proof.KernelSide
import proofs.«408270_j8632884265290_3_alg».proof.Proof.RefSide
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run, the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the four arguments both programs end at the scaled product of those arguments: the
    kernel's array block by block, the reference's operation by operation. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.AsScaledGemm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.AsScaledGemm.val_eq_out,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
